-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩

abbrev nBuf : Space → Nat
  | .hbm => 36
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x64, .f32⟩
  | .hbm, ⟨35, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.LibSageLayer.lean ====
/-
  A graph-convolution layer with a root term, read one entry at a time, at the ideal values.

  The layer acts on a row `n` of two row-major arrays at once — the aggregated neighbour features `a` and the
  node's own features `x` —: entry `(n, h)` of the result is the positive part of
  `(∑ₖ a(n,k)·Wl(k,h) + ∑ₖ x(n,k)·Wr(k,h)) + b(h)`.
  This file fixes that entry (`entry`), the whole result array (`layer`), and reads both spellings of the
  layer at an index: a kernel body's two matrix products of narrowed operands into zero accumulators, added,
  plus a bias row broadcast down the rows, against a zero splat; and the host's two `dot_general`s, added,
  plus the bias broadcast in two steps, against a zero constant broadcast from a scalar.
  Everything is generic in the extents.
-/
import proofs.«115710_j65584150609961_1_alg».proof.Proof.LibRowOps

noncomputable section

open scoped BigOperators

namespace SageLayer

open Idealize.ShloMosaic Idealize.ShloMosaic.ValueIdx RowOps

variable {R K H : ℕ}

/-- One entry of the layer from the two rows it depends on: the two dot products with column `h` of the weight
    matrices, added, plus the bias entry, and the positive part of that. -/
def entry (Wl Wr : (⟨2, ![K, H]⟩ : Shape).Idx → EReal) (a x : Fin K → EReal) (b : EReal) (h : Fin H) : EReal :=
  max (((∑ k : Fin K, a k * Wl (ix2 k h)) + (∑ k : Fin K, x k * Wr (ix2 k h))) + b) (Ideal.ofBits .f32 0x00000000#32)

/-- An entry depends on its weights, rows and bias entry only through their values. -/
theorem entry_congr {Wl Wl' Wr Wr' : (⟨2, ![K, H]⟩ : Shape).Idx → EReal} {a a' x x' : Fin K → EReal} {b b' : EReal} (h : Fin H)
    (hWl : Wl = Wl') (hWr : Wr = Wr') (ha : ∀ k, a k = a' k) (hx : ∀ k, x k = x' k) (hb : b = b') :
    entry Wl Wr a x b h = entry Wl' Wr' a' x' b' h := by
  subst hWl hWr hb
  rw [funext ha, funext hx]

/-- The layer's result array: entry `(n, h)` from row `n` of the two feature arrays. -/
def layer (agg x : (⟨2, ![R, K]⟩ : Shape).Idx → EReal) (Wl Wr : (⟨2, ![K, H]⟩ : Shape).Idx → EReal)
    (b : (⟨1, ![H]⟩ : Shape).Idx → EReal) : (⟨2, ![R, H]⟩ : Shape).Idx → EReal :=
  fun i => entry Wl Wr (fun k => agg (ix2 (i 0) k)) (fun k => x (ix2 (i 0) k)) (b (ix1 (i 1))) (i 1)

theorem layer_apply (agg x : (⟨2, ![R, K]⟩ : Shape).Idx → EReal) (Wl Wr : (⟨2, ![K, H]⟩ : Shape).Idx → EReal)
    (b : (⟨1, ![H]⟩ : Shape).Idx → EReal) (n : Fin R) (h : Fin H) :
    layer agg x Wl Wr b (ix2 n h) = entry Wl Wr (fun k => agg (ix2 n k)) (fun k => x (ix2 n k)) (b (ix1 h)) h := rfl

/-- The kernel body's spelling on one block of rows: both products into zero accumulators, the first operand
    of the first product passed through an identity cast, the bias a one-row array cast to itself and broadcast
    down the rows, the maximum against a splat of the zero word. -/
theorem body_apply (d : DotDims ⟨2, ![R, K]⟩ ⟨2, ![K, H]⟩ ⟨2, ![R, H]⟩) (hd : d = DotDims.plain R K H)
    (a x : FVec Ideal ⟨2, ![R, K]⟩ .f32) (Wl Wr : FVec Ideal ⟨2, ![K, H]⟩ .f32) (b2 : FVec Ideal ⟨2, ![1, H]⟩ .f32)
    (ht : FTy.bf16.bits < FTy.f32.bits)
    (hsa : (⟨2, ![R, K]⟩ : Shape).ShapeCasts ⟨2, ![R, K]⟩) (hsb : (⟨2, ![1, H]⟩ : Shape).ShapeCasts ⟨2, ![1, H]⟩)
    (hbc : (⟨2, ![1, H]⟩ : Shape).Broadcasts ⟨2, ![R, H]⟩) (n : Fin R) (h : Fin H) :
    maximumf
        (addf
          (addf (matmul d none (truncf .bf16 (shapeCast ⟨2, ![R, K]⟩ a hsa) ht) (truncf .bf16 Wl ht) (constant ⟨2, ![R, H]⟩ .f32 0x00000000#32))
            (matmul d none (truncf .bf16 x ht) (truncf .bf16 Wr ht) (constant ⟨2, ![R, H]⟩ .f32 0x00000000#32)))
          (broadcastTo ⟨2, ![R, H]⟩ (shapeCast ⟨2, ![1, H]⟩ b2 hsb) hbc))
        (broadcast ⟨2, ![R, H]⟩ (Scalar.ofBits (F := Ideal) .f32 0x00000000#32)) (ix2 n h)
      = entry Wl Wr (fun k => a (ix2 n k)) (fun k => x (ix2 n k)) (b2 (ix2 (0 : Fin 1) h)) h := by
  rw [shapeCast_self, shapeCast_self]
  show max ((matmul d none (truncf .bf16 a ht) (truncf .bf16 Wl ht) (constant ⟨2, ![R, H]⟩ .f32 0x00000000#32) (ix2 n h)
      + matmul d none (truncf .bf16 x ht) (truncf .bf16 Wr ht) (constant ⟨2, ![R, H]⟩ .f32 0x00000000#32) (ix2 n h))
      + broadcastTo ⟨2, ![R, H]⟩ b2 hbc (ix2 n h)) (Ideal.ofBits .f32 0x00000000#32) = _
  rw [matmul_plain_apply d hd, matmul_plain_apply d hd, broadcastTo_1b_ab_apply]
  rfl

/-- The host's spelling on the whole arrays: two `dot_general`s added, plus the bias broadcast to one row and then
    down the rows, the maximum against the zero constant broadcast from a scalar. -/
theorem host_eq (d : DotDims ⟨2, ![R, K]⟩ ⟨2, ![K, H]⟩ ⟨2, ![R, H]⟩) (hd : d = DotDims.plain R K H)
    (agg x : FVec Ideal ⟨2, ![R, K]⟩ .f32) (Wl Wr : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (h0 : (⟨0, ![]⟩ : Shape).BroadcastsInDim ⟨2, ![R, H]⟩ ![]) :
    maximumf
        (addf (addf (Host.dotGeneral d none agg Wl) (Host.dotGeneral d none x Wr))
          (broadcastInDim ⟨2, ![R, H]⟩ ![0, 1] h2 (broadcastInDim ⟨2, ![1, H]⟩ ![1] h1 b)))
        (broadcastInDim ⟨2, ![R, H]⟩ ![] h0 (constant (F := Ideal) ⟨0, ![]⟩ .f32 0x00000000#32))
      = layer agg x Wl Wr b := by
  funext i
  obtain ⟨n, h, rfl⟩ : ∃ (n : Fin R) (h : Fin H), i = ix2 n h := ⟨i 0, i 1, eq_ix2 i⟩
  show max ((Host.dotGeneral d none agg Wl (ix2 n h) + Host.dotGeneral d none x Wr (ix2 n h))
      + broadcastInDim ⟨2, ![R, H]⟩ ![0, 1] h2 (broadcastInDim ⟨2, ![1, H]⟩ ![1] h1 b) (ix2 n h)) (Ideal.ofBits .f32 0x00000000#32) = _
  rw [dotGeneral_plain_apply d hd, dotGeneral_plain_apply d hd, bias_bcast_apply b _ rfl h1 _ rfl rfl h2]
  rfl

end SageLayer

end
-- ==== Proof.KernelLayer.lean ====
/-
  The kernel's result array is the layer of the mean-aggregated neighbour features.

  The program computes the mean aggregation `agg` on the host, before its one kernel region: the source rows of
  `x` gathered edge by edge, added onto the target rows, and divided by the in-degree clamped below at one. The
  region then walks fifty blocks of two thousand rows: at block `t` the body reads rows `2000·t … 2000·t + 1999`
  of `agg` and of `x`, both weight matrices whole and the bias as one row, and stores
  `relu ((agg_blk · W_l + x_blk · W_r) + b)` into the same rows of the result. Entry `(n, h)` of a block depends
  on row `n` of the two feature blocks only, so the fifty blocks are the restrictions of ONE array,
  `SageLayer.layer agg x W_l W_r b`, and they tile it: that is what the result array holds after the run.
-/
import proofs.«115710_j65584150609961_1_alg».proof.Proof.Gen.KernelIdeal.Value
import proofs.«115710_j65584150609961_1_alg».proof.Proof.LibSageLayer
import Idealize.ShloMosaic.Lib.StableHlo.Run
import Idealize.ShloMosaic.Lib.Tactic

noncomputable section

namespace Cert.KernelIdeal.Layer

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the host operations before the region leave -/

/-- The mean aggregation as the host computes it from the features `x0` and the edge list `x1`: the scatter-add
    of the gathered source rows over the scatter-add of ones, the latter clamped below at one. -/
def agg (x0 : (⟨S100000x128, .f32⟩ : BufTy).Contents (Elt Ideal)) (x1 : (⟨S2x1600000, .i32⟩ : BufTy).Contents (Elt Ideal)) :
    (⟨S100000x128, .f32⟩ : BufTy).Contents (Elt Ideal) :=
  Host.divf (F := Ideal) (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (Host.gather gather_S100000x128_S1600000x1_S1600000x128_1_0_n_n_0_1_1128 (x0) (broadcastInDim S1600000x1 ![0] bcast_S1600000_S1600000x1_0 (select (cmpi .slt (shapeCast _ (extractStridedSlice S1x1600000 ![0, 0] (x1) slices_S2x1600000_S1x1600000_0_0) shapeCasts_S1x1600000_S1600000) (broadcastInDim S1600000 ![] bcast_S_S1600000 (constantI S_ 32 0#32))) (addi (shapeCast _ (extractStridedSlice S1x1600000 ![0, 0] (x1) slices_S2x1600000_S1x1600000_0_0) shapeCasts_S1x1600000_S1600000) (broadcastInDim S1600000 ![] bcast_S_S1600000 (constantI S_ 32 100000#32))) (shapeCast _ (extractStridedSlice S1x1600000 ![0, 0] (x1) slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))))

set_option maxHeartbeats 2000000 in
/-- The region finds the aggregation in its first window's array. -/
theorem V_agg (c : Dev nD) :
    (V m c main_v22 : S100000x128.Idx → EReal) = agg (m ((c : Thread nD τ).loc main_arg0)) (m ((c : Thread nD τ).loc main_arg1)) := by
  dsimp only [Gen.V, Gen.hostOps0]; after_results_simp <;> rfl

set_option maxHeartbeats 2000000 in
/-- The region finds the bias as one row in its fifth window's array. -/
theorem V_bias (c : Dev nD) :
    (V m c main_v23 : S1x64.Idx → EReal) = shapeCast S1x64 (m ((c : Thread nD τ).loc main_arg4)) shapeCasts_S64_S1x64 := by
  dsimp only [Gen.V, Gen.hostOps0]; after_results_simp <;> rfl

/-! ## The body's stored value at an index -/

/-- The body's two products contract the last axis of the left operand with the first of the right. -/
theorem dot_plain : dot_S2000x128_S128x64_S2000x64_1_0_0_1_n_n = DotDims.plain 2000 128 64 := rfl

/-- Entry `(p, q)` of what the body stores, from row `p` of its two feature blocks, column `q` of its weight
    blocks and entry `q` of its bias row. -/
theorem pay_apply (x0 x1 : Vec Ideal S2000x128 .f32) (x2 x3 : Vec Ideal S128x64 .f32) (x4 : Vec Ideal S1x64 .f32)
    (p : Fin 2000) (q : Fin 64) :
    k0_pay1 x0 x1 x2 x3 x4 (ix2 p q)
      = SageLayer.entry x2 x3 (fun k => x0 (ix2 p k)) (fun k => x1 (ix2 p k)) (x4 (ix2 (0 : Fin 1) q)) q := by
  unfold k0_pay1
  exact SageLayer.body_apply _ dot_plain x0 x1 x2 x3 x4 _ _ _ _ p q

/-! ## The windows' blocks as rows of their arrays -/

theorem hz : (![0, 0] : Fin 2 → Nat) = fun _ => 0 := funext fun a => by fin_cases a <;> rfl

/-- The printed index maps over the grid: the two feature windows and the result window are at row block `t`,
    the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of a feature array's block at point `t` (window 0) is row `2000·t + p` of the array. -/
theorem rows_blk0 (A : S100000x128.Idx → EReal) (t : Fin cfg0.N) (p : Fin 2000) (k : Fin 128) (n : Fin 100000)
    (hn : n.val = t.val * 2000 + p.val) :
    ((cfg0.win 0).blk t).view.read (Elt Ideal) A (ix2 p k) = A (ix2 n k) := by
  obtain ⟨e0, e1, -⟩ := idx_facts t
  show A (((cfg0.win 0).blk t).view.emb (ix2 p k)) = _
  refine congrArg A (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- The same for window 1. -/
theorem rows_blk1 (A : S100000x128.Idx → EReal) (t : Fin cfg0.N) (p : Fin 2000) (k : Fin 128) (n : Fin 100000)
    (hn : n.val = t.val * 2000 + p.val) :
    ((cfg0.win 1).blk t).view.read (Elt Ideal) A (ix2 p k) = A (ix2 n k) := by
  obtain ⟨-, -, e0, e1, -⟩ := idx_facts t
  show A (((cfg0.win 1).blk t).view.emb (ix2 p k)) = _
  refine congrArg A (funext fun a => Fin.ext ?_)
  match a with
  | ⟨0, _⟩ => show win0_1.index t (0 : Fin 2) * 2000 + 1 * p.val = n.val; omega
  | ⟨1, _⟩ => show win0_1.index t (1 : Fin 2) * 128 + 1 * k.val = k.val; omega

/-- A weight matrix's one block (window 2) is the whole matrix. -/
theorem whole_blk2 (A : S128x64.Idx → EReal) (t : Fin cfg0.N) : ((cfg0.win 2).blk t).view.read (Elt Ideal) A = A := by
  obtain ⟨-, -, -, -, e0, e1, -⟩ := idx_facts t
  funext y
  show A (((cfg0.win 2).blk t).view.emb y) = A y
  refine congrArg A (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The same for window 3. -/
theorem whole_blk3 (A : S128x64.Idx → EReal) (t : Fin cfg0.N) : ((cfg0.win 3).blk t).view.read (Elt Ideal) A = A := by
  obtain ⟨-, -, -, -, -, -, e0, e1, -⟩ := idx_facts t
  funext y
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The one-row array's one block (window 4) is the row. -/
theorem row_blk4 (A : S1x64.Idx → EReal) (t : Fin cfg0.N) (q : Fin 64) :
    ((cfg0.win 4).blk t).view.read (Elt Ideal) A (ix2 (0 : Fin 1) q) = A (ix2 (0 : Fin 1) q) := by
  obtain ⟨-, -, -, -, -, -, -, -, e0, e1, -⟩ := idx_facts t
  show A (((cfg0.win 4).blk t).view.emb (ix2 (0 : Fin 1) q)) = _
  refine congrArg A (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-! ## From the blocks to the array -/

/-- For ANY arrays under the five input windows: what the body stores at point `t` from their blocks there is
    block `t` of the layer of the arrays (`b` the bias the one-row array spells). -/
theorem stored_blk (A0 A1 : S100000x128.Idx → EReal) (A2 A3 : S128x64.Idx → EReal) (A4 : S1x64.Idx → EReal)
    (b : S64.Idx → EReal) (hb : ∀ q : Fin 64, A4 (ix2 (0 : Fin 1) q) = b (ix1 q)) (t : Fin cfg0.N) :
    (cfg0.win 5).cut (grid0.coords t)
        (k0_pay1 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (SageLayer.layer A0 A1 A2 A3 b) := by
  obtain ⟨-, -, -, -, -, -, -, -, -, -, e0, e1⟩ := idx_facts t
  funext j
  obtain ⟨p, q, rfl⟩ : ∃ (p : Fin 2000) (q : Fin 64), j = ix2 p q := ⟨j 0, j 1, eq_ix2 j⟩
  have hN : cfg0.N = 50 := N_0
  have hn : t.val * 2000 + p.val < 100000 := by have := t.isLt; have := p.isLt; omega
  have hemb : ((cfg0.win 5).blk t).view.emb (ix2 p q) = (ix2 (⟨t.val * 2000 + p.val, hn⟩ : Fin 100000) q : S100000x64.Idx) :=
    funext fun a => Fin.ext (by
      match a with
      | ⟨0, _⟩ => show win0_5.index t (0 : Fin 2) * 2000 + 1 * p.val = t.val * 2000 + p.val; omega
      | ⟨1, _⟩ => show win0_5.index t (1 : Fin 2) * 64 + 1 * q.val = q.val; omega)
  show k0_pay1 (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) (ix2 p q)
    = SageLayer.layer A0 A1 A2 A3 b (((cfg0.win 5).blk t).view.emb (ix2 p q))
  rw [hemb, SageLayer.layer_apply]
  refine (pay_apply (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) p q).trans ?_
  exact SageLayer.entry_congr q (whole_blk2 A2 t) (whole_blk3 A3 t)
    (fun k => rows_blk0 A0 t p k ⟨t.val * 2000 + p.val, hn⟩ rfl) (fun k => rows_blk1 A1 t p k ⟨t.val * 2000 + p.val, hn⟩ rfl)
    ((row_blk4 A4 t q).trans (hb q))

/-- The layer of the arrays the region finds. -/
abbrev result (c : Dev nD) : S100000x64.Idx → EReal :=
  SageLayer.layer (V m c main_v22) (V m c main_arg0) (V m c main_arg2) (V m c main_arg3) (m ((c : Thread nD τ).loc main_arg4))

/-- The one-row array the region finds spells the bias. -/
theorem bias_row (c : Dev nD) (q : Fin 64) :
    (V m c main_v23 : S1x64.Idx → EReal) (ix2 (0 : Fin 1) q) = (m ((c : Thread nD τ).loc main_arg4) : S64.Idx → EReal) (ix1 q) := by
  rw [V_bias]
  exact shapeCast_a_1a_apply _ _ 0 q

/-- What point `t` writes back is block `t` of the layer. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S2000x128) hz, View.ld_unit_zero (S := S128x64) hz, View.ld_unit_zero (S := S1x64) hz]
  unfold iblk
  exact stored_blk (V m c main_v22) (V m c main_arg0) (V m c main_arg2) (V m c main_arg3) (V m c main_v23)
    (m ((c : Thread nD τ).loc main_arg4)) (bias_row m c) t

/-- An index of the result is in point `t`'s block iff each coordinate is in the block's range on its axis. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v24).slice (win0_5.rect t)).set ↔ _
  rw [View.set_slice_whole, Rect.mem_set_unit]
  exact Iff.rfl

/-- Row `n` of the result lies in the block of point `n / 2000`: the fifty blocks tile the array. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 64 ≤ (i 1).val ∧ (i 1).val < win0_5.index ⟨(i 0).val / 2000, ht⟩ (1 : Fin 2) * 64 + 64
    rw [e1]; omega

/-- The layer of the aggregation and the arguments as launched. -/
abbrev value (c : Dev nD) : S100000x64.Idx → EReal :=
  SageLayer.layer (agg (m ((c : Thread nD τ).loc main_arg0)) (m ((c : Thread nD τ).loc main_arg1)))
    (m ((c : Thread nD τ).loc main_arg0)) (m ((c : Thread nD τ).loc main_arg2)) (m ((c : Thread nD τ).loc main_arg3))
    (m ((c : Thread nD τ).loc main_arg4))

/-- The result array after the run. -/
theorem final (c : Dev nD) : (dats m 0 c).arrAt 5 cfg0.N = value m c := by
  rw [(dats m 0 c).arrAt_eq_of_cover 5 (result m c) (fun t _ => flushed_eq m c t) cover]
  unfold result value
  rw [V_agg, V_main_arg0, V_main_arg2, V_main_arg3]

/-- The run, read: the result array at the layer of the aggregation, the arguments unchanged. -/
theorem run : θ_run defs (onTc (τ := τ) (main (F := Ideal))) ⟨m, fun _ => 0, ρ⟩ fun r => ∀ c : Dev nD,
      r.2.mem ((c : Thread nD τ).loc main_v24) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Layer

end
-- ==== Proof.RefLayer.lean ====
/-
  The reference's result is the layer of the mean-aggregated neighbour features.

  The reference computes the mean aggregation `agg` on the host (a gather of the source rows, a scatter-add onto
  the target rows, a scatter-add of ones for the in-degree, a division by the in-degree clamped below at one) and
  then `relu ((agg · W_l + x · W_r) + b)` with two matrix products over the whole arrays. Read at an index, the
  second part is `SageLayer.layer` of `agg` and the arguments; the aggregation itself is never opened: it
  enters as the array the reference's own stage `val_main_v22` names.
-/
import proofs.«115710_j65584150609961_1_alg».proof.Proof.Gen.ReferenceIdeal.Read
import proofs.«115710_j65584150609961_1_alg».proof.Proof.LibSageLayer

noncomputable section

namespace Cert.ReferenceIdeal.Layer

open Cert.ReferenceIdeal Cert.ReferenceIdeal.Gen Cert.ReferenceIdeal.Read Idealize.ShloMosaic

/-- The reference's two products contract the last axis of the left operand with the first of the right. -/
theorem dot_plain : dot_S100000x128_S128x64_S100000x64_1_0_0_1_n_n = DotDims.plain 100000 128 64 := rfl

/-- The reference's result array is the layer of its own aggregation stage and the arguments. -/
theorem result_eq (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal)) :
    val_main_v29 (F := Ideal) x0 x1 x2 x3 x4 = SageLayer.layer (val_main_v22 (F := Ideal) x0 x1) x0 x2 x3 x4 := by
  unfold val_main_v29 val_main_v28 val_main_v27 val_main_v26 val_main_v25 val_main_v24 val_main_v23 val_main_call0_v0 val_main_call0_cst
  exact SageLayer.host_eq _ dot_plain _ _ _ _ _ _ _ _

end Cert.ReferenceIdeal.Layer

end
-- ==== Proof.lean ====
/-
  A graph-convolution layer with mean aggregation and a root term, `relu (agg · W_l + x · W_r + b)` over
  100000 nodes, 1600000 edges, 128 input and 64 output features: the kernel against the plain reference,
  equal over the extended reals.

  Both programs compute the mean aggregation `agg` with the SAME host operations — the source rows of `x`
  gathered edge by edge (a negative source index wrapped once), added onto the target rows, divided by the
  in-degree clamped below at one — so that array is one term on both sides and is never opened. What differs
  is the dense part. The reference takes two matrix products over the whole arrays, adds them, adds the bias
  broadcast over the rows, and takes the positive part. The kernel walks fifty blocks of two thousand rows; on
  each it narrows its operands (the identity on the extended reals), takes the two products of the row blocks
  into zero accumulators, adds them, adds the bias row, and takes the positive part. Entry `(n, h)` is on both
  sides `max ((∑ₖ agg(n,k)·W_l(k,h) + ∑ₖ x(n,k)·W_r(k,h)) + b(h)) 0`, with the sums and the additions in the
  same order, so no law of the extended reals beyond reading the operations at an index is needed and the
  finiteness of the inputs is never used. The blocks are restrictions of that one array and tile it.

  The three frames are the generated ones (the reference's its generated run with the result dropped); the
  idealization rewrote nothing, so `preserves` is trivial.
-/
import proofs.«115710_j65584150609961_1_alg».proof.Defs
import proofs.«115710_j65584150609961_1_alg».proof.Proof.Gen.Kernel
import proofs.«115710_j65584150609961_1_alg».proof.Proof.Gen.Kernel.Skeleton
import proofs.«115710_j65584150609961_1_alg».proof.Proof.Gen.Kernel.Launch
import proofs.«115710_j65584150609961_1_alg».proof.Proof.Gen.Kernel.Points
import proofs.«115710_j65584150609961_1_alg».proof.Proof.Gen.Kernel.Frame
import proofs.«115710_j65584150609961_1_alg».proof.Proof.Gen.KernelIdeal
import proofs.«115710_j65584150609961_1_alg».proof.Proof.Gen.KernelIdeal.Skeleton
import proofs.«115710_j65584150609961_1_alg».proof.Proof.Gen.KernelIdeal.Launch
import proofs.«115710_j65584150609961_1_alg».proof.Proof.Gen.KernelIdeal.Points
import proofs.«115710_j65584150609961_1_alg».proof.Proof.Gen.KernelIdeal.Frame
import proofs.«115710_j65584150609961_1_alg».proof.Proof.Gen.ReferenceIdeal
import proofs.«115710_j65584150609961_1_alg».proof.Proof.Gen.Pre_finite_inputs
import proofs.«115710_j65584150609961_1_alg».proof.Proof.Gen.KernelIdeal.Value
import proofs.«115710_j65584150609961_1_alg».proof.Proof.Gen.ReferenceIdeal.Run
import proofs.«115710_j65584150609961_1_alg».proof.Proof.Gen.ReferenceIdeal.Read
import proofs.«115710_j65584150609961_1_alg».proof.Proof.KernelLayer
import proofs.«115710_j65584150609961_1_alg».proof.Proof.RefLayer
import Idealize.ShloMosaic.Adequacy
import Idealize.ShloMosaic.Init

noncomputable section

namespace Cert.Proof

open Idealize.ShloMosaic Idealize.ShloMosaic.TcCoe Idealize.SL.Sem

/-- The two programs' aggregations are one term: the same host operations of the same two arguments (the records
    of the gather and of the two scatters carry the same dimension numbers in both programs). -/
theorem agg_eq (x0 : (⟨Cert.KernelIdeal.S100000x128, .f32⟩ : BufTy).Contents (Elt Ideal))
    (x1 : (⟨Cert.KernelIdeal.S2x1600000, .i32⟩ : BufTy).Contents (Elt Ideal)) :
    Cert.KernelIdeal.Layer.agg x0 x1 = Cert.ReferenceIdeal.Read.val_main_v22 (F := Ideal) x0 x1 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays end at the layer of the aggregation and the arguments. -/
theorem algebraic : Cert.algebraic_KernelIdeal_ReferenceIdeal := by
  intro m ρ m' ρ' _ hagree
  refine ⟨fun c => Cert.KernelIdeal.Layer.value m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Layer.result_eq,
    (hagree c).1, (hagree c).2.1, (hagree c).2.2.1, (hagree c).2.2.2.1, (hagree c).2.2.2.2]
  show _ = SageLayer.layer (Cert.KernelIdeal.Layer.agg _ _) _ _ _ _
  rw [agg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
